-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S1x10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 12
  | .vmem => 10
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S10000x128, .f32⟩
  | .hbm, ⟨11, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S400x10000, .f32⟩
  | .local _ .vmem, ⟨5, _⟩ => ⟨S400x10000, .f32⟩
  | .local _ .vmem, ⟨6, _⟩ => ⟨S1x128, .f32⟩
  | .local _ .vmem, ⟨7, _⟩ => ⟨S1x1, .f32⟩
  | .local _ .vmem, ⟨8, _⟩ => ⟨S400x128, .f32⟩
  | .local _ .vmem, ⟨9, _⟩ => ⟨S400x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  shapeCasts_S10000x128_S1x10000x128 : S10000x128.ShapeCasts S1x10000x128
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v0) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S_ : Shape := ⟨0, ![]⟩
abbrev S1x1x1 : Shape := ⟨3, ![1, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x1x1, .f32⟩
  | .hbm, ⟨14, _⟩ => ⟨S1x10000x128, .f32⟩
  | .hbm, ⟨15, _⟩ => ⟨S1x10000x128, .f32⟩
  | .hbm, ⟨16, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Spec.lean ====
/-
  The value both programs compute: one graph-convolution layer with a parametric rectifier.

  With `x` the node features (one batch, 10000 nodes, 128 features), `adj` the dense adjacency (10000 by 10000), `w` the
  weight (128 outputs by 128 inputs), `b` the bias and `al` the rectifier's one slope:

    projected n o = sum over d of x(0, n, d) * w(o, d)                      (features times the weight's transpose)
    aggregate i o = (sum over j of adj(0, i, j) * projected j o) + b(o)     (the adjacency times the projected features)
    layer (0,i,o) = aggregate i o if aggregate i o >= 0, else al(0) * aggregate i o.

  Everything is on the extended reals; the sums are Mathlib's finite sums, the comparison and the selection are the ideal
  instance's own, applied to one element. Both the tiled kernel and the plain reference are this function of the arrays, so no
  algebraic law is needed to join them: only the bookkeeping that says which entry of which array each operation reads.
-/
import Idealize.ShloMosaic.Lib.ValueIdx
import Idealize.ShloMosaic.PureOps.Ideal.Laws

noncomputable section

open scoped BigOperators

namespace Cert.GraphLayer

open Idealize.ShloMosaic Idealize.ShloMosaic.ValueIdx

/-- Node features, adjacency, weight, bias and slope as functions of their indices. -/
abbrev Feat := (⟨3, ![1, 10000, 128]⟩ : Shape).Idx → EReal
abbrev Adj := (⟨3, ![1, 10000, 10000]⟩ : Shape).Idx → EReal
abbrev Wt := (⟨2, ![128, 128]⟩ : Shape).Idx → EReal
abbrev Bias := (⟨1, ![128]⟩ : Shape).Idx → EReal
abbrev Slope := (⟨1, ![1]⟩ : Shape).Idx → EReal

/-- Node `n`'s features against row `o` of the weight. -/
def projected (x : Feat) (w : Wt) (n : Fin 10000) (o : Fin 128) : EReal :=
  ∑ d : Fin 128, x (ix3 (0 : Fin 1) n d) * w (ix2 o d)

/-- Row `i` of the adjacency against column `o` of the projected features, plus the bias. -/
def aggregate (x : Feat) (adj : Adj) (w : Wt) (b : Bias) (i : Fin 10000) (o : Fin 128) : EReal :=
  (∑ j : Fin 10000, adj (ix3 (0 : Fin 1) i j) * projected x w j o) + b (ix1 o)

/-- The parametric rectifier on one value: the value itself where it is at least zero, the slope times it elsewhere. -/
def rectify (al a : EReal) : EReal :=
  Scalar.select (FloatOps.cmpf (F := Ideal) (φ := .f32) .oge a (Ideal.ofBits .f32 0x00000000#32)) a (al * a)

/-- The layer's result, index by index. -/
def layer (x : Feat) (adj : Adj) (w : Wt) (b : Bias) (al : Slope) : (⟨3, ![1, 10000, 128]⟩ : Shape).Idx → EReal :=
  fun i => rectify (al (ix1 (0 : Fin 1))) (aggregate x adj w b (i 1) (i 2))

/-- The projected features as a 10000 by 128 matrix: what the first launch leaves. -/
def projectedMat (x : Feat) (w : Wt) : (⟨2, ![10000, 128]⟩ : Shape).Idx → EReal :=
  fun j => projected x w (j 0) (j 1)

/-- The layer's result as a 10000 by 128 matrix: what the second launch leaves. -/
def layerMat (x : Feat) (adj : Adj) (w : Wt) (b : Bias) (al : Slope) : (⟨2, ![10000, 128]⟩ : Shape).Idx → EReal :=
  fun j => rectify (al (ix1 (0 : Fin 1))) (aggregate x adj w b (j 0) (j 1))

end Cert.GraphLayer

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibTransposedDot.lean ====
/-
  A matrix product whose right operand is contracted on its SECOND axis, read at coordinates.

  `DotDims.transposedRhs M K N` are the dimension numbers of an `M×K` by `N×K` product: both operands are contracted on
  their second axis, no batch axis: the left operand times the transpose of the right. At the ideal instance such a product,
  whether it is the kernel's `tpu.matmul` into a zero accumulator or the host's `dot_general`, is at the output index
  `(r, c)` the sum over `k : Fin K` of `A (r, k) * B (c, k)` on the extended reals.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl j _).trans hk

/-- The right operand's index at output index `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl j _).trans hk

/-- The kernel's product into a zero accumulator, at an output index: the sum over the shared axis. -/
theorem matmul_zero_apply (prec : Option ContractPrecision) (A : FVec Ideal ⟨2, ![M, K]⟩ .f32) (B : FVec Ideal ⟨2, ![N, K]⟩ .f32)
    (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![N, K]⟩ .f32) (j : (⟨2, ![M, N]⟩ : Shape).Idx) :
    FloatOps.dotGeneral (DotDims.transposedRhs M K N) prec sched A B j = ∑ k : Fin K, A (ix2 (j 0) k) * B (ix2 (j 1) k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.KernelBodies.lean ====
/-
  What each of the two kernel bodies stores, read at one entry.

  The first body stores the product of the node features with the transposed weight: entry (n, o) is the sum over d of
  features(n, d) * weight(o, d). The second body stores, for a tile of 400 rows of the adjacency, the tile times the projected
  features, plus the bias row repeated down the rows, passed through the parametric rectifier whose slope is the one entry of
  the 1 by 1 slope block: entry (p, q) is rectify slope ((sum over k of tile(p, k) * projected(k, q)) + bias(0, q)).
-/
import proofs.«155314_g386547056873_cont_8to1_b_852_4_alg».proof.Proof.Gen.KernelIdeal.Skeleton
import proofs.«155314_g386547056873_cont_8to1_b_852_4_alg».proof.Proof.Spec
import proofs.«155314_g386547056873_cont_8to1_b_852_4_alg».proof.Proof.LibPlainDot
import proofs.«155314_g386547056873_cont_8to1_b_852_4_alg».proof.Proof.LibTransposedDot
import Idealize.ShloMosaic.Lib.Pipeline.Value
import Idealize.ShloMosaic.Lib.ValueIdx

noncomputable section

open scoped BigOperators

namespace Cert.KernelIdeal.Bodies

open Cert.KernelIdeal Cert.KernelIdeal.Gen Cert.GraphLayer
open Idealize.ShloMosaic Idealize.ShloMosaic.ValueIdx

/-- The first body's stored value at (n, o): row n of the features against row o of the weight. -/
theorem projection_at (v0 : Vec Ideal S10000x128 .f32) (v2 : Vec Ideal S128x128 .f32) (p : Fin 10000) (q : Fin 128) :
    k0_pay1 (F := Ideal) v0 v2 (ix2 p q) = ∑ d : Fin 128, v0 (ix2 p d) * v2 (ix2 q d) := by
  unfold k0_pay1
  rw [shapeCast_self]
  exact TransposedDot.matmul_zero_apply 10000 128 128 none v0 v2 (ix2 p q)

/-- The bias row repeated down a tile's rows reads the row at the entry's column. -/
theorem bias_rows_at (v : Vec Ideal S1x128 .f32) (p : Fin 400) (q : Fin 128) :
    broadcastTo S400x128 v broadcasts_S1x128_S400x128 (ix2 p q) = v (ix2 (0 : Fin 1) q) :=
  broadcastTo_apply v broadcasts_S1x128_S400x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- A tile of 400 adjacency rows times the projected features, at (p, q): row p of the tile against column q. -/
theorem tile_product_at (a : Vec Ideal S400x10000 .f32) (f : Vec Ideal S10000x128 .f32) (p : Fin 400) (q : Fin 128) :
    matmul (F := Ideal) (φ₁ := .f32) (φ₂ := .f32) dot_S400x10000_S10000x128_S400x128_1_0_0_1_n_n none a f (constant S400x128 .f32 0x00000000#32) (ix2 p q)
      = ∑ k : Fin 10000, a (ix2 p k) * f (ix2 k q) :=
  PlainDot.matmul_zero_apply 400 10000 128 none a f (ix2 p q)

/-- The one entry of the 1 by 1 slope block. -/
theorem slope_at (al : Vec Ideal S1x1 .f32) :
    extractAt ![0, 0] al inpos_S1x1_p0_0 = al (ix2 (0 : Fin 1) (0 : Fin 1)) := by
  unfold extractAt
  refine congrArg al (funext fun x => ?_)
  match x with
  | ⟨0, _⟩ => rfl
  | ⟨1, _⟩ => rfl

/-- The second body's stored value at (p, q). -/
theorem aggregation_at (a : Vec Ideal S400x10000 .f32) (f : Vec Ideal S10000x128 .f32) (b : Vec Ideal S1x128 .f32)
    (al : Vec Ideal S1x1 .f32) (p : Fin 400) (q : Fin 128) :
    k1_pay1 (F := Ideal) a f b al (ix2 p q)
      = rectify (al (ix2 (0 : Fin 1) (0 : Fin 1))) ((∑ k : Fin 10000, a (ix2 p k) * f (ix2 k q)) + b (ix2 (0 : Fin 1) q)) := by
  unfold k1_pay1
  rw [shapeCast_self, shapeCast_self, shapeCast_self]
  simp only [select_apply, cmpf_apply, addf_apply, mulf_apply, broadcast_apply]
  rw [tile_product_at, bias_rows_at, slope_at]
  rfl

end Cert.KernelIdeal.Bodies

end
-- ==== Proof.Launches.lean ====
/-
  What each launch leaves in its output array, as a function of the arrays it finds.

  The first launch has one grid point and whole-array windows: its output array ends holding, at (n, o), the sum over d of
  found-features(n, d) * found-weight(o, d). The second launch walks 25 grid points; at point t it reads rows 400 t .. 400 t + 399
  of the adjacency, the whole projected-features array, the bias row and the slope block, and writes rows 400 t .. 400 t + 399 of
  its output. Entry (p, q) of the tile written at point t is entry (400 t + p, q) of one whole-array function of the found arrays,
  and the 25 tiles cover every row (row r lies in tile r / 400), so the output array ends holding that function.
-/
import proofs.«155314_g386547056873_cont_8to1_b_852_4_alg».proof.Proof.Gen.KernelIdeal.Frame
import proofs.«155314_g386547056873_cont_8to1_b_852_4_alg».proof.Proof.KernelBodies
import Idealize.ShloMosaic.Lib.Pipeline.Value
import Idealize.ShloMosaic.Lib.ValueIdx

noncomputable section

open scoped BigOperators

namespace Cert.KernelIdeal.Launches

open Cert.KernelIdeal Cert.KernelIdeal.Gen Cert.KernelIdeal.Bodies Cert.GraphLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The first launch -/

theorem zero_offsets : (![0, 0] : Fin 2 → Nat) = fun _ => 0 := funext fun a => by fin_cases a <;> rfl

/-- The arrays the first launch finds, at their literal types. -/
abbrev featuresFound (c : Dev nD) : S10000x128.Idx → EReal := V c main_v0
abbrev weightFound (c : Dev nD) : S128x128.Idx → EReal := V c main_arg2

/-- Entry (n, o): row n of the first matrix against row o of the second. -/
def productWithTranspose (xs : S10000x128.Idx → EReal) (w : S128x128.Idx → EReal) : S10000x128.Idx → EReal :=
  fun j => ∑ d : Fin 128, xs (ix2 (j 0) d) * w (ix2 (j 1) d)

theorem emb0_0 (t : Fin cfg0.N) (y : S10000x128.Idx) : ((cfg0.win 0).blk t).view.emb y = y := by
  funext a
  apply Fin.ext
  match a with
  | ⟨0, _⟩ => show win0_0.index t (0 : Fin 2) * 10000 + 1 * (y 0).val = (y 0).val; show 0 * 10000 + 1 * (y 0).val = (y 0).val; omega
  | ⟨1, _⟩ => show win0_0.index t (1 : Fin 2) * 128 + 1 * (y 1).val = (y 1).val; show 0 * 128 + 1 * (y 1).val = (y 1).val; omega

theorem emb0_1 (t : Fin cfg0.N) (y : S128x128.Idx) : ((cfg0.win 1).blk t).view.emb y = y := by
  funext a
  apply Fin.ext
  match a with
  | ⟨0, _⟩ => show 0 * 128 + 1 * (y 0).val = (y 0).val; omega
  | ⟨1, _⟩ => show 0 * 128 + 1 * (y 1).val = (y 1).val; omega

theorem emb0_2 (t : Fin cfg0.N) (y : S10000x128.Idx) : ((cfg0.win 2).blk t).view.emb y = y := by
  funext a
  apply Fin.ext
  match a with
  | ⟨0, _⟩ => show 0 * 10000 + 1 * (y 0).val = (y 0).val; omega
  | ⟨1, _⟩ => show 0 * 128 + 1 * (y 1).val = (y 1).val; omega

theorem first_flushed (c : Dev nD) (t : Fin cfg0.N) :
    (dat0 V c).flushed 2 t
      = ((cfg0.win 2).blk t).view.read (Elt Ideal) (productWithTranspose (featuresFound V c) (weightFound V c)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  funext y
  obtain ⟨p, q, rfl⟩ : ∃ (p : Fin 10000) (q : Fin 128), y = ix2 p q := ⟨y 0, y 1, eq_ix2 y⟩
  refine (projection_at (iblk0 V c 0 t) (iblk0 V c 1 t) p q).trans ?_
  show ∑ d : Fin 128, featuresFound V c (((cfg0.win 0).blk t).view.emb (ix2 p d)) * weightFound V c (((cfg0.win 1).blk t).view.emb (ix2 q d))
      = productWithTranspose (featuresFound V c) (weightFound V c) (((cfg0.win 2).blk t).view.emb (ix2 p q))
  rw [emb0_2 t (ix2 p q)]
  unfold productWithTranspose
  refine Finset.sum_congr rfl fun d _ => ?_
  rw [emb0_0 t (ix2 p d), emb0_1 t (ix2 q d)]

theorem first_cover (i : S10000x128.Idx) :
    ∃ t : Fin cfg0.N, (cfg0.win 2).flush t = true ∧ i ∈ ((cfg0.win 2).blk t).view.set := by
  refine ⟨t0_0, flush0_2 t0_0, ?_⟩
  show i ∈ ((View.whole main_call0_v0).slice (win0_2.rect t0_0)).set
  rw [View.set_slice_whole, Rect.mem_set_unit]
  have h0 := idx2_lt0 i
  have h1 := idx2_lt1 i
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

theorem first_value (c : Dev nD) :
    (dat0 V c).arrAt 2 cfg0.N = productWithTranspose (featuresFound V c) (weightFound V c) :=
  (dat0 V c).arrAt_eq_of_cover 2 _ (fun t _ => first_flushed V c t) first_cover

/-! ## The second launch -/

/-- The arrays the second launch finds, at their literal types. -/
abbrev projectedFound (c : Dev nD) : S10000x128.Idx → EReal := V c main_call0_v0
abbrev adjacencyFound (c : Dev nD) : S10000x10000.Idx → EReal := V c main_v1
abbrev biasFound (c : Dev nD) : S1x128.Idx → EReal := V c main_v2
abbrev slopeFound (c : Dev nD) : S1x1.Idx → EReal := V c main_v3

/-- Entry (i, o): row i of the adjacency against column o of the projected features, plus the bias, rectified. -/
def rectifiedAggregate (f : S10000x128.Idx → EReal) (a : S10000x10000.Idx → EReal) (b : S1x128.Idx → EReal)
    (al : S1x1.Idx → EReal) : S10000x128.Idx → EReal :=
  fun j => rectify (al (ix2 (0 : Fin 1) (0 : Fin 1))) ((∑ k : Fin 10000, a (ix2 (j 0) k) * f (ix2 k (j 1))) + b (ix2 (0 : Fin 1) (j 1)))

/-- The block index of each window at each grid point: the adjacency tile and the output tile move down with the point, the
    other three stay at block 0. -/
theorem tile_indices : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 25 := lt_of_lt_of_eq t.isLt N_1

/-- The array row that row p of the tile at point t is. -/
def tileRow (t : Fin cfg1.N) (p : Fin 400) : Fin 10000 := ⟨t.val * 400 + p.val, by have := point_lt t; omega⟩

theorem emb1_0 (t : Fin cfg1.N) (y : S10000x128.Idx) : ((cfg1.win 0).blk t).view.emb y = y := by
  obtain ⟨e0, e1, -⟩ := tile_indices t
  funext a
  apply Fin.ext
  match a with
  | ⟨0, _⟩ => show win1_0.index t (0 : Fin 2) * 10000 + 1 * (y 0).val = (y 0).val; omega
  | ⟨1, _⟩ => show win1_0.index t (1 : Fin 2) * 128 + 1 * (y 1).val = (y 1).val; omega

theorem emb1_1 (t : Fin cfg1.N) (p : Fin 400) (k : Fin 10000) :
    ((cfg1.win 1).blk t).view.emb (ix2 p k) = ix2 (tileRow t p) k := by
  obtain ⟨-, -, e0, e1, -⟩ := tile_indices t
  funext a
  apply Fin.ext
  match a with
  | ⟨0, _⟩ => show win1_1.index t (0 : Fin 2) * 400 + 1 * p.val = t.val * 400 + p.val; omega
  | ⟨1, _⟩ => show win1_1.index t (1 : Fin 2) * 10000 + 1 * k.val = k.val; omega

theorem emb1_2 (t : Fin cfg1.N) (y : S1x128.Idx) : ((cfg1.win 2).blk t).view.emb y = y := by
  obtain ⟨-, -, -, -, e0, e1, -⟩ := tile_indices t
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem emb1_3 (t : Fin cfg1.N) (y : S1x1.Idx) : ((cfg1.win 3).blk t).view.emb y = y := by
  obtain ⟨-, -, -, -, -, -, e0, e1, -⟩ := tile_indices t
  funext a
  apply Fin.ext
  match a with
  | ⟨0, _⟩ => show win1_3.index t (0 : Fin 2) * 1 + 1 * (y 0).val = (y 0).val; omega
  | ⟨1, _⟩ => show win1_3.index t (1 : Fin 2) * 1 + 1 * (y 1).val = (y 1).val; omega

theorem emb1_4 (t : Fin cfg1.N) (p : Fin 400) (q : Fin 128) :
    ((cfg1.win 4).blk t).view.emb (ix2 p q) = ix2 (tileRow t p) q := by
  obtain ⟨-, -, -, -, -, -, -, -, e0, e1⟩ := tile_indices t
  funext a
  apply Fin.ext
  match a with
  | ⟨0, _⟩ => show win1_4.index t (0 : Fin 2) * 400 + 1 * p.val = t.val * 400 + p.val; omega
  | ⟨1, _⟩ => show win1_4.index t (1 : Fin 2) * 128 + 1 * q.val = q.val; omega

/-- What point t writes back is tile t of the whole-array function. -/
theorem second_flushed (c : Dev nD) (t : Fin cfg1.N) :
    (dat1 V c).flushed 4 t
      = ((cfg1.win 4).blk t).view.read (Elt Ideal)
          (rectifiedAggregate (projectedFound V c) (adjacencyFound V c) (biasFound V c) (slopeFound V c)) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x128) zero_offsets,
    View.ld_unit_zero (S := S1x128) zero_offsets, View.ld_unit_zero (S := S1x1) zero_offsets]
  funext y
  obtain ⟨p, q, rfl⟩ : ∃ (p : Fin 400) (q : Fin 128), y = ix2 p q := ⟨y 0, y 1, eq_ix2 y⟩
  refine (aggregation_at (iblk1 V c 1 t) (iblk1 V c 0 t) (iblk1 V c 2 t) (iblk1 V c 3 t) p q).trans ?_
  show rectify (slopeFound V c (((cfg1.win 3).blk t).view.emb (ix2 (0 : Fin 1) (0 : Fin 1))))
        ((∑ k : Fin 10000, adjacencyFound V c (((cfg1.win 1).blk t).view.emb (ix2 p k)) * projectedFound V c (((cfg1.win 0).blk t).view.emb (ix2 k q)))
          + biasFound V c (((cfg1.win 2).blk t).view.emb (ix2 (0 : Fin 1) q)))
      = rectifiedAggregate (projectedFound V c) (adjacencyFound V c) (biasFound V c) (slopeFound V c) (((cfg1.win 4).blk t).view.emb (ix2 p q))
  rw [emb1_4 t p q, emb1_3 t (ix2 (0 : Fin 1) (0 : Fin 1)), emb1_2 t (ix2 (0 : Fin 1) q)]
  show _ = rectify (slopeFound V c (ix2 (0 : Fin 1) (0 : Fin 1)))
        ((∑ k : Fin 10000, adjacencyFound V c (ix2 (tileRow t p) k) * projectedFound V c (ix2 k q)) + biasFound V c (ix2 (0 : Fin 1) q))
  refine congrArg (fun s => rectify (slopeFound V c (ix2 (0 : Fin 1) (0 : Fin 1))) (s + biasFound V c (ix2 (0 : Fin 1) q)))
    (Finset.sum_congr rfl fun k _ => ?_)
  rw [emb1_1 t p k, emb1_0 t (ix2 k q)]

/-- Every row lies in the tile of the point row / 400. -/
theorem second_cover (i : S10000x128.Idx) :
    ∃ t : Fin cfg1.N, (cfg1.win 4).flush t = true ∧ i ∈ ((cfg1.win 4).blk t).view.set := by
  have h0 := idx2_lt0 i
  have h1 := idx2_lt1 i
  let t : Fin cfg1.N := ⟨(i 0).val / 400, by rw [show cfg1.N = 25 from N_1]; omega⟩
  obtain ⟨-, -, -, -, -, -, -, -, e0, e1⟩ := tile_indices t
  have ht : t.val = (i 0).val / 400 := rfl
  refine ⟨t, flush1_4 t, ?_⟩
  show i ∈ ((View.whole main_v4).slice (win1_4.rect t)).set
  rw [View.set_slice_whole, Rect.mem_set_unit]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- The second launch's output array after the launch. -/
theorem second_value (c : Dev nD) :
    (dat1 V c).arrAt 4 cfg1.N
      = rectifiedAggregate (projectedFound V c) (adjacencyFound V c) (biasFound V c) (slopeFound V c) :=
  (dat1 V c).arrAt_eq_of_cover 4 _ (fun t _ => second_flushed V c t) second_cover

end Cert.KernelIdeal.Launches

end
-- ==== Proof.LibFlattenRows.lean ====
/-
  The two leading axes of a rank-3 array merged into one, and split again, read at an index: an [a, b, c] array recast as
  [n, c] with n = a · b has row (p, s) of the one at row p · b + s of the other, column for column, because both positions are
  the ((p · b + s) · c + k)-th in row-major order.
-/
import Idealize.ShloMosaic.Lib.Pipeline.Value
import Idealize.ShloMosaic.Lib.ValueIdx

noncomputable section

namespace Idealize.ShloMosaic.FlattenRows

open Idealize.ShloMosaic Idealize.ShloMosaic.ValueIdx

variable {α : Type}

/-- An `[a, b, c]` array recast as `[n, c]` reads, at `(r, k)` with `r = p · b + s`, the operand at `(p, s, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (k : Fin c) (r : Fin n)
    (hr : r.val = p.val * b + s.val) : shapeCast ⟨2, ![n, c]⟩ x h (ix2 r k) = x (ix3 p s k) :=
  shapeCast_apply x h _ _ (by
    rw [Shape.rowMajor_val_three, Shape.rowMajor_val_two]
    show (p.val * b + s.val) * c + k.val = r.val * c + k.val
    rw [hr])

/-- An `[n, c]` array recast as `[a, b, c]` reads, at `(p, s, k)`, the operand at `(r, k)` with `r = p · b + s`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (k : Fin c) (r : Fin n)
    (hr : r.val = p.val * b + s.val) : shapeCast ⟨3, ![a, b, c]⟩ y h (ix3 p s k) = y (ix2 r k) :=
  shapeCast_apply y h _ _ (by
    rw [Shape.rowMajor_val_three, Shape.rowMajor_val_two]
    show r.val * c + k.val = (p.val * b + s.val) * c + k.val
    rw [hr])

end Idealize.ShloMosaic.FlattenRows

end
-- ==== Proof.Boundaries.lean ====
/-
  What the host operations around the two launches leave, read at an entry.

  Before the first launch four reshapes drop or add unit axes: the features [1, 10000, 128] become the matrix [10000, 128], the
  adjacency [1, 10000, 10000] the matrix [10000, 10000], the bias [128] the row [1, 128], the slope [1] the block [1, 1]; each
  keeps every element at its row-major place. After the second launch one reshape puts the unit axis back on the result. Between
  the launches nothing runs, so the second launch finds the reshaped arrays as the first found them, and in the first launch's
  output array what its write-back left.
-/
import proofs.«155314_g386547056873_cont_8to1_b_852_4_alg».proof.Proof.Gen.KernelIdeal.Frame
import proofs.«155314_g386547056873_cont_8to1_b_852_4_alg».proof.Proof.LibFlattenRows
import Idealize.ShloMosaic.Lib.StableHlo.Run
import Idealize.ShloMosaic.Lib.Pipeline.Value
import Idealize.ShloMosaic.Lib.ValueIdx

noncomputable section

namespace Cert.KernelIdeal.Boundaries

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The first launch's entry: the four reshaped arguments and the weight -/

theorem entry_features (c : Dev nD) :
    V1 m ρ c main_v0 = shapeCast S10000x128 (m ((c : Thread nD τ).loc main_arg0)) shapeCasts_S1x10000x128_S10000x128 := by
  show StableHlo.after hostOps0 (W0 m ρ c) (Proc.devRef .tc main_v0) = _
  after_results
  rfl

theorem entry_adjacency (c : Dev nD) :
    V1 m ρ c main_v1 = shapeCast S10000x10000 (m ((c : Thread nD τ).loc main_arg1)) shapeCasts_S1x10000x10000_S10000x10000 := by
  show StableHlo.after hostOps0 (W0 m ρ c) (Proc.devRef .tc main_v1) = _
  after_results
  rfl

theorem entry_bias (c : Dev nD) :
    V1 m ρ c main_v2 = shapeCast S1x128 (m ((c : Thread nD τ).loc main_arg3)) shapeCasts_S128_S1x128 := by
  show StableHlo.after hostOps0 (W0 m ρ c) (Proc.devRef .tc main_v2) = _
  after_results
  rfl

theorem entry_slope (c : Dev nD) :
    V1 m ρ c main_v3 = shapeCast S1x1 (m ((c : Thread nD τ).loc main_arg4)) shapeCasts_S1_S1x1 := by
  show StableHlo.after hostOps0 (W0 m ρ c) (Proc.devRef .tc main_v3) = _
  after_results
  rfl

theorem entry_weight (c : Dev nD) : V1 m ρ c main_arg2 = m ((c : Thread nD τ).loc main_arg2) := by
  show StableHlo.after hostOps0 (W0 m ρ c) (Proc.devRef .tc main_arg2) = _
  after_results

/-! ## The reshaped arguments at an entry -/

theorem entry_features_at (c : Dev nD) (n : Fin 10000) (d : Fin 128) :
    V1 m ρ c main_v0 (ix2 n d) = m ((c : Thread nD τ).loc main_arg0) (ix3 (0 : Fin 1) n d) := by
  rw [entry_features]
  exact FlattenRows.shapeCast_abc_nc_apply _ shapeCasts_S1x10000x128_S10000x128 (0 : Fin 1) n d n (by simp)

theorem entry_adjacency_at (c : Dev nD) (i : Fin 10000) (j : Fin 10000) :
    V1 m ρ c main_v1 (ix2 i j) = m ((c : Thread nD τ).loc main_arg1) (ix3 (0 : Fin 1) i j) := by
  rw [entry_adjacency]
  exact FlattenRows.shapeCast_abc_nc_apply _ shapeCasts_S1x10000x10000_S10000x10000 (0 : Fin 1) i j i (by simp)

theorem entry_bias_at (c : Dev nD) (o : Fin 128) :
    V1 m ρ c main_v2 (ix2 (0 : Fin 1) o) = m ((c : Thread nD τ).loc main_arg3) (ix1 o) := by
  rw [entry_bias]
  exact shapeCast_apply _ shapeCasts_S128_S1x128 _ _ (by
    rw [Shape.rowMajor_val_one, Shape.rowMajor_val_two]
    show o.val = (0 : Fin 1).val * 128 + o.val
    simp)

theorem entry_slope_at (c : Dev nD) :
    V1 m ρ c main_v3 (ix2 (0 : Fin 1) (0 : Fin 1)) = m ((c : Thread nD τ).loc main_arg4) (ix1 (0 : Fin 1)) := by
  rw [entry_slope]
  exact shapeCast_apply _ shapeCasts_S1_S1x1 _ _ (by
    rw [Shape.rowMajor_val_one, Shape.rowMajor_val_two]
    rfl)

/-! ## The second launch's entry -/

theorem second_projected (c : Dev nD) : V2 m ρ c main_call0_v0 = (dat0 (V1 m ρ) c).arrAt 2 cfg0.N :=
  W2_arr m ρ c 2

theorem second_adjacency (c : Dev nD) : V2 m ρ c main_v1 = V1 m ρ c main_v1 := W2_of_ne m ρ c main_v1 (by decide)
theorem second_bias (c : Dev nD) : V2 m ρ c main_v2 = V1 m ρ c main_v2 := W2_of_ne m ρ c main_v2 (by decide)
theorem second_slope (c : Dev nD) : V2 m ρ c main_v3 = V1 m ρ c main_v3 := W2_of_ne m ρ c main_v3 (by decide)

/-! ## The result buffer at the last boundary -/

theorem result_reshaped (c : Dev nD) :
    W4 m ρ c (Proc.devRef .tc main_v5)
      = shapeCast S1x10000x128 ((dat1 (V2 m ρ) c).arrAt 4 cfg1.N) shapeCasts_S10000x128_S1x10000x128 := by
  show StableHlo.after hostOps2 (W3 m ρ c) (Proc.devRef .tc main_v5) = _
  after_results
  rw [show W3 m ρ c (Proc.devRef .tc main_v4) = (dat1 (V2 m ρ) c).arrAt 4 cfg1.N from W3_arr m ρ c 4]
  rfl

theorem result_at (c : Dev nD) (i : Fin 10000) (o : Fin 128) :
    W4 m ρ c (Proc.devRef .tc main_v5) (ix3 (0 : Fin 1) i o) = (dat1 (V2 m ρ) c).arrAt 4 cfg1.N (ix2 i o) := by
  rw [result_reshaped]
  exact FlattenRows.shapeCast_nc_abc_apply _ shapeCasts_S10000x128_S1x10000x128 (0 : Fin 1) i o i (by simp)

end Cert.KernelIdeal.Boundaries

end
-- ==== Proof.KernelValue.lean ====
/-
  The kernel computes the layer: the result buffer at the last boundary of the run is the specification.

  Reading back from the end: the result buffer is the second launch's output with the unit batch axis put back; that output is,
  at (i, o), the rectified aggregate of the arrays the second launch found; those are the reshaped adjacency, bias and slope,
  untouched by the first launch, and the first launch's output, which at (n, o) is the found features against the found weight:
  the projected features of the launch arguments. Substituting each entry gives the specification's formula term for term.
-/
import proofs.«155314_g386547056873_cont_8to1_b_852_4_alg».proof.Proof.Launches
import proofs.«155314_g386547056873_cont_8to1_b_852_4_alg».proof.Proof.Boundaries
import proofs.«155314_g386547056873_cont_8to1_b_852_4_alg».proof.Proof.Spec

noncomputable section

open scoped BigOperators

namespace Cert.KernelIdeal.LayerValue

open Cert.KernelIdeal Cert.KernelIdeal.Gen Cert.KernelIdeal.Launches Cert.KernelIdeal.Boundaries Cert.GraphLayer
open Idealize.ShloMosaic Idealize.ShloMosaic.TcCoe Idealize.SL.Sem Idealize.ShloMosaic.ValueIdx

variable (m : (ℓ : Loc nD τ sig) → Buf (Elt Ideal) ℓ) (ρ : Dev nD → PrngReg)

/-- The launch arguments at their literal types. -/
abbrev featuresArg (c : Dev nD) : Feat := m ((c : Thread nD τ).loc main_arg0)
abbrev adjacencyArg (c : Dev nD) : Adj := m ((c : Thread nD τ).loc main_arg1)
abbrev weightArg (c : Dev nD) : Wt := m ((c : Thread nD τ).loc main_arg2)
abbrev biasArg (c : Dev nD) : Bias := m ((c : Thread nD τ).loc main_arg3)
abbrev slopeArg (c : Dev nD) : Slope := m ((c : Thread nD τ).loc main_arg4)

/-- What the second launch finds in the first launch's output array: the projected features of the arguments. -/
theorem projected_found (c : Dev nD) (n : Fin 10000) (o : Fin 128) :
    projectedFound (V2 m ρ) c (ix2 n o) = projected (featuresArg m c) (weightArg m c) n o := by
  have h : projectedFound (V2 m ρ) c = productWithTranspose (featuresFound (V1 m ρ) c) (weightFound (V1 m ρ) c) :=
    (second_projected m ρ c).trans (first_value (V1 m ρ) c)
  rw [h]
  unfold productWithTranspose projected
  refine Finset.sum_congr rfl fun d _ => ?_
  exact congrArg₂ (· * ·) (entry_features_at m ρ c n d) (congrFun (entry_weight m ρ c) (ix2 o d))

/-- The result buffer at the last boundary is the layer of the launch arguments. -/
theorem kernel_value (c : Dev nD) :
    W4 m ρ c (Proc.devRef .tc main_v5)
      = layer (featuresArg m c) (adjacencyArg m c) (weightArg m c) (biasArg m c) (slopeArg m c) := by
  funext i
  obtain ⟨b, n, o, rfl⟩ : ∃ (b : Fin 1) (n : Fin 10000) (o : Fin 128), i = ix3 b n o := ⟨i 0, i 1, i 2, eq_ix3 i⟩
  obtain rfl : b = 0 := Subsingleton.elim _ _
  rw [result_at, second_value]
  show rectify (slopeFound (V2 m ρ) c (ix2 (0 : Fin 1) (0 : Fin 1)))
        ((∑ k : Fin 10000, adjacencyFound (V2 m ρ) c (ix2 n k) * projectedFound (V2 m ρ) c (ix2 k o)) + biasFound (V2 m ρ) c (ix2 (0 : Fin 1) o))
      = rectify (slopeArg m c (ix1 (0 : Fin 1)))
        ((∑ j : Fin 10000, adjacencyArg m c (ix3 (0 : Fin 1) n j) * projected (featuresArg m c) (weightArg m c) j o) + biasArg m c (ix1 o))
  have hs : slopeFound (V2 m ρ) c (ix2 (0 : Fin 1) (0 : Fin 1)) = slopeArg m c (ix1 (0 : Fin 1)) :=
    (congrFun (second_slope m ρ c) _).trans (entry_slope_at m ρ c)
  have hb : biasFound (V2 m ρ) c (ix2 (0 : Fin 1) o) = biasArg m c (ix1 o) :=
    (congrFun (second_bias m ρ c) _).trans (entry_bias_at m ρ c o)
  have ha : ∀ k : Fin 10000, adjacencyFound (V2 m ρ) c (ix2 n k) * projectedFound (V2 m ρ) c (ix2 k o)
      = adjacencyArg m c (ix3 (0 : Fin 1) n k) * projected (featuresArg m c) (weightArg m c) k o := fun k =>
    congrArg₂ (· * ·) ((congrFun (second_adjacency m ρ c) _).trans (entry_adjacency_at m ρ c n k)) (projected_found m ρ c k o)
  rw [hs, hb, Finset.sum_congr rfl fun k _ => ha k]

end Cert.KernelIdeal.LayerValue

end
-- ==== Proof.ReferenceValue.lean ====
/-
  The reference computes the layer: its composed term, read at an index, is the specification.

  The reference contracts the features' last axis against the weight's last axis (the projected features), then the
  adjacency's last axis against the projected features' node axis with the unit batch axis carried along (the aggregate), adds
  the bias broadcast over batch and nodes, compares with a broadcast zero, multiplies by the broadcast slope and selects. Read
  at the index (0, i, o) each broadcast reads its operand's one relevant entry and each contraction is the sum the
  specification writes, over the same entries in the same order.
-/
import proofs.«155314_g386547056873_cont_8to1_b_852_4_alg».proof.Proof.Gen.ReferenceIdeal.Read
import proofs.«155314_g386547056873_cont_8to1_b_852_4_alg».proof.Proof.Spec

noncomputable section

open scoped BigOperators

namespace Cert.ReferenceIdeal.LayerValue

open Cert.ReferenceIdeal Cert.ReferenceIdeal.Gen Cert.ReferenceIdeal.Read Cert.GraphLayer
open Idealize.ShloMosaic Idealize.ShloMosaic.ValueIdx

variable (x0 : (⟨S1x10000x128, .f32⟩ : BufTy).Contents (Elt Ideal)) (x1 : (⟨S1x10000x10000, .f32⟩ : BufTy).Contents (Elt Ideal))
  (x2 : (⟨S128x128, .f32⟩ : BufTy).Contents (Elt Ideal)) (x3 : (⟨S128, .f32⟩ : BufTy).Contents (Elt Ideal))
  (x4 : (⟨S1, .f32⟩ : BufTy).Contents (Elt Ideal))

/-- The adjacency entry the aggregate's k-th term reads. -/
theorem adjacency_entry (b : Fin 1) (n : Fin 10000) (o : Fin 128) (k : Fin 10000) :
    lidx_main_v1 (ix3 b n o) k = ix3 (0 : Fin 1) n k :=
  funext fun a => by
    match a with
    | ⟨0, _⟩ => exact Subsingleton.elim (α := Fin 1) _ _
    | ⟨1, _⟩ => rfl
    | ⟨2, _⟩ => rfl

/-- The projected-features entry the aggregate's k-th term reads. -/
theorem projected_entry (b : Fin 1) (n : Fin 10000) (o : Fin 128) (k : Fin 10000) :
    ridx_main_v1 (ix3 b n o) k = ix3 (0 : Fin 1) k o :=
  funext fun a => by
    match a with
    | ⟨0, _⟩ => exact Subsingleton.elim (α := Fin 1) _ _
    | ⟨1, _⟩ => rfl
    | ⟨2, _⟩ => rfl

/-- The features entry the projection's d-th term reads. -/
theorem features_entry (n : Fin 10000) (o : Fin 128) (d : Fin 128) : lidx_main_v0 (ix3 (0 : Fin 1) n o) d = ix3 (0 : Fin 1) n d :=
  funext fun a => by
    match a with
    | ⟨0, _⟩ => rfl
    | ⟨1, _⟩ => rfl
    | ⟨2, _⟩ => rfl

/-- The weight entry the projection's d-th term reads. -/
theorem weight_entry (n : Fin 10000) (o : Fin 128) (d : Fin 128) : ridx_main_v0 (ix3 (0 : Fin 1) n o) d = ix2 o d :=
  funext fun a => by
    match a with
    | ⟨0, _⟩ => rfl
    | ⟨1, _⟩ => rfl

/-- The reference's first product at (0, n, o) is the specification's projected features. -/
theorem projected_at (n : Fin 10000) (o : Fin 128) :
    val_main_v0 (F := Ideal) x0 x2 (ix3 (0 : Fin 1) n o) = projected x0 x2 n o := by
  rw [val_main_v0_apply]
  unfold projected
  refine Finset.sum_congr rfl fun d _ => ?_
  rw [features_entry, weight_entry]

/-- The reference's pre-activation at (b, n, o) is the specification's aggregate at (n, o). -/
theorem aggregate_at (b : Fin 1) (n : Fin 10000) (o : Fin 128) :
    val_main_v4 (F := Ideal) x0 x1 x2 x3 (ix3 b n o) = aggregate x0 x1 x2 x3 n o := by
  rw [val_main_v4_apply, val_main_v1_apply, val_main_v3_apply, val_main_v2_apply]
  unfold aggregate
  show (∑ k : Fin 10000, x1 (lidx_main_v1 (ix3 b n o) k) * val_main_v0 (F := Ideal) x0 x2 (ridx_main_v1 (ix3 b n o) k))
        + x3 (idx_main_v2 (idx_main_v3 (ix3 b n o)))
      = (∑ j : Fin 10000, x1 (ix3 (0 : Fin 1) n j) * projected x0 x2 j o) + x3 (ix1 o)
  have hs : ∀ k : Fin 10000, x1 (lidx_main_v1 (ix3 b n o) k) * val_main_v0 (F := Ideal) x0 x2 (ridx_main_v1 (ix3 b n o) k)
      = x1 (ix3 (0 : Fin 1) n k) * projected x0 x2 k o := fun k => by
    rw [adjacency_entry, projected_entry, projected_at]
  have hb : idx_main_v2 (idx_main_v3 (ix3 b n o)) = ix1 o := funext fun a => by
    match a with
    | ⟨0, _⟩ => rfl
  rw [Finset.sum_congr rfl fun k _ => hs k, hb]

/-- The reference's result, at every index, is the layer. -/
theorem result_eq : val_main_v10 (F := Ideal) x0 x1 x2 x3 x4 = layer x0 x1 x2 x3 x4 := by
  funext i
  obtain ⟨b, n, o, rfl⟩ : ∃ (b : Fin 1) (n : Fin 10000) (o : Fin 128), i = ix3 b n o := ⟨i 0, i 1, i 2, eq_ix3 i⟩
  rw [val_main_v10_apply, val_main_v6_apply, val_main_v9_apply, val_main_v5_apply, val_main_cst_apply, val_main_v8_apply,
    val_main_v7_apply, aggregate_at]
  have hs : idx_main_v7 (idx_main_v8 (ix3 b n o)) = ix1 (0 : Fin 1) := funext fun a => by
    match a with
    | ⟨0, _⟩ => rfl
  rw [hs]
  rfl

end Cert.ReferenceIdeal.LayerValue

end
-- ==== Proof.lean ====
/-
  The certificate of the dense graph-convolution layer: a kernel of two launches against its plain reference.

  The kernel first projects the node features with the transposed weight in one launch, then streams the adjacency in 25 tiles
  of 400 rows, multiplying each tile with the projected features, adding the bias and applying the parametric rectifier; the
  reference contracts the whole arrays. On the extended reals both are one function of the five arguments (Proof/Spec.lean):
  every sum runs over the same entries in the same order, so the equivalence needs no algebraic law and never opens the
  finiteness precondition. The three frames are the generated ones (the reference's is its generated run with the result
  dropped); the idealization rewrote nothing, so its conjunct is trivial.
-/
import proofs.«155314_g386547056873_cont_8to1_b_852_4_alg».proof.Defs
import proofs.«155314_g386547056873_cont_8to1_b_852_4_alg».proof.Proof.Gen.Kernel
import proofs.«155314_g386547056873_cont_8to1_b_852_4_alg».proof.Proof.Gen.Kernel.Skeleton
import proofs.«155314_g386547056873_cont_8to1_b_852_4_alg».proof.Proof.Gen.Kernel.Launch
import proofs.«155314_g386547056873_cont_8to1_b_852_4_alg».proof.Proof.Gen.Kernel.Points
import proofs.«155314_g386547056873_cont_8to1_b_852_4_alg».proof.Proof.Gen.Kernel.Frame
import proofs.«155314_g386547056873_cont_8to1_b_852_4_alg».proof.Proof.Gen.KernelIdeal
import proofs.«155314_g386547056873_cont_8to1_b_852_4_alg».proof.Proof.Gen.KernelIdeal.Skeleton
import proofs.«155314_g386547056873_cont_8to1_b_852_4_alg».proof.Proof.Gen.KernelIdeal.Launch
import proofs.«155314_g386547056873_cont_8to1_b_852_4_alg».proof.Proof.Gen.KernelIdeal.Points
import proofs.«155314_g386547056873_cont_8to1_b_852_4_alg».proof.Proof.Gen.KernelIdeal.Frame
import proofs.«155314_g386547056873_cont_8to1_b_852_4_alg».proof.Proof.Gen.ReferenceIdeal
import proofs.«155314_g386547056873_cont_8to1_b_852_4_alg».proof.Proof.Gen.ReferenceIdeal.Run
import proofs.«155314_g386547056873_cont_8to1_b_852_4_alg».proof.Proof.Gen.ReferenceIdeal.Read
import proofs.«155314_g386547056873_cont_8to1_b_852_4_alg».proof.Proof.Gen.Pre_finite_inputs
import proofs.«155314_g386547056873_cont_8to1_b_852_4_alg».proof.Proof.LaunchValue
import proofs.«155314_g386547056873_cont_8to1_b_852_4_alg».proof.Proof.KernelValue
import proofs.«155314_g386547056873_cont_8to1_b_852_4_alg».proof.Proof.ReferenceValue
import Idealize.ShloMosaic.Adequacy
import Idealize.ShloMosaic.Init

noncomputable section

namespace Cert.Proof

open Idealize.ShloMosaic Idealize.SL.Sem Cert.GraphLayer

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer of those arguments in their result buffers. -/
theorem algebraic : Cert.algebraic_KernelIdeal_ReferenceIdeal := by
  intro m ρ m' ρ' _ hagree
  refine ⟨fun c => layer (Cert.KernelIdeal.LayerValue.featuresArg m c) (Cert.KernelIdeal.LayerValue.adjacencyArg m c)
    (Cert.KernelIdeal.LayerValue.weightArg m c) (Cert.KernelIdeal.LayerValue.biasArg m c) (Cert.KernelIdeal.LayerValue.slopeArg m c), ?_, ?_⟩
  · exact (θ_run Cert.KernelIdeal.defs _ _).mono
      (fun r h c => ⟨(h c).1.trans (Cert.KernelIdeal.LayerValue.kernel_value m ρ c), (h c).2⟩)
      (Cert.KernelIdeal.LayerRun.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.LayerValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
